-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50265x1024 : Shape := ⟨2, ![50265, 1024]⟩
abbrev S16x4096 : Shape := ⟨2, ![16, 4096]⟩
abbrev S_ : Shape := ⟨0, ![]⟩

class Facts : Prop where
  bcast_S_S50265x1024 : S_.BroadcastsInDim S50265x1024 (![] : Fin 0 → Fin S50265x1024.rank)
  reducesTo_S50265x1024_S_d0_1 : S50265x1024.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_v10 : IVec S_ 1) (main_v15 : IVec S16x4096 1) (main_c_5 : IVec S_ 1) : IVec S_ 1 :=
  let main_v16 : IVec S_ 1 := (fun x v => Host.reduce IntOp.andi x v reducesTo_S16x4096_S_d0_1 h_S_) main_v15 main_c_5
  let main_v17 : IVec S_ 1 := andi main_v10 main_v16
  main_v17

def fn {F : FTy → Type} [FloatOps F] (main_arg0 : FVec F S50265x1024 .f32) (main_arg1 : IVec S16x4096 32) (main_arg2 : IVec S16x4096 32) (main_arg3 : IVec S16x4096 32) (main_arg4 : IVec S16x4096 32) : IVec S_ 1 :=
  let main_v0 : FVec F S50265x1024 .f32 := Host.absf main_arg0
  let main_cst : FVec F S_ .f32 := constant S_ .f32 0x7F800000#32
  let main_v1 : FVec F S50265x1024 .f32 := broadcastInDim S50265x1024 ![] bcast_S_S50265x1024 main_cst
  let main_v2 : IVec S50265x1024 1 := cmpf .olt main_v0 main_v1
  let main_c : IVec S_ 1 := constantI S_ 1 1#1
  let main_v3 : IVec S_ 1 := (fun x v => Host.reduce IntOp.andi x v reducesTo_S50265x1024_S_d0_1 h_S_) main_v2 main_c
  let main_c_0 : IVec S_ 32 := constantI S_ 32 0#32
  let main_v4 : IVec S16x4096 32 := broadcastInDim S16x4096 ![] bcast_S_S16x4096 main_c_0
  let main_v5 : IVec S16x4096 1 := cmpi .sge main_arg2 main_v4
  let main_c_1 : IVec S_ 32 := constantI S_ 32 1024#32
  let main_v6 : IVec S16x4096 32 := broadcastInDim S16x4096 ![] bcast_S_S16x4096 main_c_1
  let main_v7 : IVec S16x4096 1 := cmpi .slt main_arg2 main_v6
  let main_v8 : IVec S16x4096 1 := andi main_v5 main_v7
  let main_c_2 : IVec S_ 1 := constantI S_ 1 1#1
  let main_v9 : IVec S_ 1 := (fun x v => Host.reduce IntOp.andi x v reducesTo_S16x4096_S_d0_1 h_S_) main_v8 main_c_2
  let main_v10 : IVec S_ 1 := andi main_v3 main_v9
  let main_c_3 : IVec S_ 32 := constantI S_ 32 0#32
  let main_v11 : IVec S16x4096 32 := broadcastInDim S16x4096 ![] bcast_S_S16x4096 main_c_3
  let main_v12 : IVec S16x4096 1 := cmpi .sge main_arg4 main_v11
  let main_c_4 : IVec S_ 32 := constantI S_ 32 1024#32
  let main_v13 : IVec S16x4096 32 := broadcastInDim S16x4096 ![] bcast_S_S16x4096 main_c_4
  let main_v14 : IVec S16x4096 1 := cmpi .slt main_arg4 main_v13
  let main_v15 : IVec S16x4096 1 := andi main_v12 main_v14
  let main_c_5 : IVec S_ 1 := constantI S_ 1 1#1
  fn_part1 (F := F) main_v10 main_v15 main_c_5
-- ==== Kernel.lean ====
abbrev S50265x1024 : Shape := ⟨2, ![50265, 1024]⟩
abbrev S16x4096 : Shape := ⟨2, ![16, 4096]⟩
abbrev S_ : Shape := ⟨0, ![]⟩
abbrev S16x4096x1 : Shape := ⟨3, ![16, 4096, 1]⟩
abbrev S16x4096x1024 : Shape := ⟨3, ![16, 4096, 1024]⟩
abbrev S16x1024x1024 : Shape := ⟨3, ![16, 1024, 1024]⟩
abbrev S1x4096x1024 : Shape := ⟨3, ![1, 4096, 1024]⟩
abbrev S1x4096x1 : Shape := ⟨3, ![1, 4096, 1]⟩
abbrev S1x1024x1024 : Shape := ⟨3, ![1, 1024, 1024]⟩
abbrev S4096x1024 : Shape := ⟨2, ![4096, 1024]⟩
abbrev S4096x1 : Shape := ⟨2, ![4096, 1]⟩
abbrev S1024x1024 : Shape := ⟨2, ![1024, 1024]⟩
abbrev S1024x1 : Shape := ⟨2, ![1024, 1]⟩
abbrev S16x2048x1024 : Shape := ⟨3, ![16, 2048, 1024]⟩

abbrev nBuf : Space → Nat
  | .hbm => 29
  | .vmem => 12
  | .smem => 0
  | _ => 0

abbrev bufTy : (tb : Table) → Fin (tcTables nBuf tb) → BufTy
  | .hbm, ⟨0, _⟩ => ⟨S50265x1024, .f32⟩
  | .hbm, ⟨1, _⟩ => ⟨S16x4096, .i32⟩
  | .hbm, ⟨2, _⟩ => ⟨S16x4096, .i32⟩
  | .hbm, ⟨3, _⟩ => ⟨S16x4096, .i32⟩
  | .hbm, ⟨4, _⟩ => ⟨S16x4096, .i32⟩
  | .hbm, ⟨5, _⟩ => ⟨S50265x1024, .bf16⟩
  | .hbm, ⟨6, _⟩ => ⟨S_, .i32⟩
  | .hbm, ⟨7, _⟩ => ⟨S16x4096, .i32⟩
  | .hbm, ⟨8, _⟩ => ⟨S16x4096, .i1⟩
  | .hbm, ⟨9, _⟩ => ⟨S_, .i32⟩
  | .hbm, ⟨10, _⟩ => ⟨S16x4096, .i32⟩
  | .hbm, ⟨11, _⟩ => ⟨S16x4096, .i32⟩
  | .hbm, ⟨12, _⟩ => ⟨S16x4096, .i32⟩
  | .hbm, ⟨13, _⟩ => ⟨S16x4096x1, .i32⟩
  | .hbm, ⟨14, _⟩ => ⟨S16x4096x1024, .bf16⟩
  | .hbm, ⟨15, _⟩ => ⟨S_, .i32⟩
  | .hbm, ⟨16, _⟩ => ⟨S16x4096, .i32⟩
  | .hbm, ⟨17, _⟩ => ⟨S16x4096, .i1⟩
  | .hbm, ⟨18, _⟩ => ⟨S_, .i32⟩
  | .hbm, ⟨19, _⟩ => ⟨S16x4096, .i32⟩
  | .hbm, ⟨20, _⟩ => ⟨S16x4096, .i32⟩
  | .hbm, ⟨21, _⟩ => ⟨S16x4096, .i32⟩
  | .hbm, ⟨22, _⟩ => ⟨S16x4096x1, .i32⟩
  | .hbm, ⟨23, _⟩ => ⟨S16x4096x1024, .bf16⟩
  | .hbm, ⟨24, _⟩ => ⟨S16x4096x1, .i32⟩
  | .hbm, ⟨25, _⟩ => ⟨S16x1024x1024, .f32⟩
  | .hbm, ⟨26, _⟩ => ⟨S16x4096x1, .i32⟩
  | .hbm, ⟨27, _⟩ => ⟨S16x1024x1024, .f32⟩
  | .hbm, ⟨28, _⟩ => ⟨S16x2048x1024, .f32⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x1, .i32⟩
  | .local _ .vmem, ⟨3, _⟩ => ⟨S1x4096x1, .i32⟩
  | .local _ .vmem, ⟨4, _⟩ => ⟨S1x1024x1024, .f32⟩
  | .local _ .vmem, ⟨5, _⟩ => ⟨S1x1024x1024, .f32⟩
  | .local _ .vmem, ⟨6, _⟩ => ⟨S1x4096x1024, .bf16⟩
  | .local _ .vmem, ⟨7, _⟩ => ⟨S1x4096x1024, .bf16⟩
  | .local _ .vmem, ⟨8, _⟩ => ⟨S1x4096x1, .i32⟩
  | .local _ .vmem, ⟨9, _⟩ => ⟨S1x4096x1, .i32⟩
  | .local _ .vmem, ⟨10, _⟩ => ⟨S1x1024x1024, .f32⟩
  | .local _ .vmem, ⟨11, _⟩ => ⟨S1x1024x1024, .f32⟩
  | _, _ => ⟨S50265x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  iota_S4096x1024_d1_w32 : S4096x1024.Iotas .tc 32 [1]
  broadcasts_S4096x1_S4096x1024 : S4096x1.Broadcasts S4096x1024
  natLt_1_32 : 1 < 32
  broadcasts_S1024x1_S1024x1024 : S1024x1.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  concatenates_S16x1024x1024_S16x1024x1024_S16x2048x1024_d1 : Shape.Concatenates [S16x1024x1024, S16x1024x1024] S16x2048x1024 1
  gather_S50265x1024_S16x4096x1_S16x4096x1024_2_0_n_n_0_2_11024_wf : GatherDims.WF S50265x1024 S16x4096x1 S16x4096x1024 [2] [0] [] [0] [] 2 ![1, 1024]
  dot_S4096x1024_S4096x1024_S1024x1024_0_0_1_1_n_n_wf : DotDims.WF S4096x1024 S4096x1024 S1024x1024 [0] [0] [1] [1] [] []
  dot_S4096x1024_S4096x1_S1024x1_0_0_1_1_n_n_wf : DotDims.WF S4096x1024 S4096x1 S1024x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x1024.size a ≤ S16x4096x1024.size a
  hwx0_0 : ∀ i : grid0.Coords, EltTy.bits .bf16 = 32 ∨ (Rect.block (s := S16x4096x1024) S1x4096x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1.size a ≤ S16x4096x1.size a
  hwx0_1 : ∀ i : grid0.Coords, EltTy.bits .i32 = 32 ∨ (Rect.block (s := S16x4096x1) S1x4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x1024x1024.size a
  hwx0_2 : ∀ i : grid0.Coords, EltTy.bits .f32 = 32 ∨ (Rect.block (s := S16x1024x1024) S1x1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x1024.size a ≤ S16x4096x1024.size a
  hwx1_0 : ∀ i : grid1.Coords, EltTy.bits .bf16 = 32 ∨ (Rect.block (s := S16x4096x1024) S1x4096x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x1.size a ≤ S16x4096x1.size a
  hwx1_1 : ∀ i : grid1.Coords, EltTy.bits .i32 = 32 ∨ (Rect.block (s := S16x4096x1) S1x4096x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S16x1024x1024.size a
  hwx1_2 : ∀ i : grid1.Coords, EltTy.bits .f32 = 32 ∨ (Rect.block (s := S16x1024x1024) S1x1024x1024.size (cc1_transform_2 i) (hinb1_2 i)).WholeWords (EltTy.packing .f32)

variable [Facts₀]

def gather_S50265x1024_S16x4096x1_S16x4096x1024_2_0_n_n_0_2_11024 : GatherDims S50265x1024 S16x4096x1 S16x4096x1024 where
  offsetDims := [2]
  collapsedSliceDims := [0]
  operandBatchingDims := []
  startIndicesBatchingDims := []
  startIndexMap := [0]
  indexVectorDim := 2
  sliceSizes := ![1, 1024]
  wf := gather_S50265x1024_S16x4096x1_S16x4096x1024_2_0_n_n_0_2_11024_wf
def dot_S4096x1024_S4096x1024_S1024x1024_0_0_1_1_n_n : DotDims S4096x1024 S4096x1024 S1024x1024 where
  lhsContracting := [0]
  rhsContracting := [0]
  lhsNonContracting := [1]
  rhsNonContracting := [1]
  lhsBatch := []
  rhsBatch := []
  wf := dot_S4096x1024_S4096x1024_S1024x1024_0_0_1_1_n_n_wf
def dot_S4096x1024_S4096x1_S1024x1_0_0_1_1_n_n : DotDims S4096x1024 S4096x1 S1024x1 where
  lhsContracting := [0]
  rhsContracting := [0]
  lhsNonContracting := [1]
  rhsNonContracting := [1]
  lhsBatch := []
  rhsBatch := []
  wf := dot_S4096x1024_S4096x1_S1024x1_0_0_1_1_n_n_wf

abbrev win0_0 : Pipeline.Window sig grid0 :=
  Pipeline.Window.ofSpec (Memref.whole main_v7) S1x4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S1x4096x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50265x1024 : Shape := ⟨2, ![50265, 1024]⟩
abbrev S16x4096 : Shape := ⟨2, ![16, 4096]⟩
abbrev S_ : Shape := ⟨0, ![]⟩
abbrev S16x4096x1 : Shape := ⟨3, ![16, 4096, 1]⟩
abbrev S16x4096x1024 : Shape := ⟨3, ![16, 4096, 1024]⟩
abbrev S16 : Shape := ⟨1, ![16]⟩
abbrev S16x1 : Shape := ⟨2, ![16, 1]⟩
abbrev S65536 : Shape := ⟨1, ![65536]⟩
abbrev S65536x1024 : Shape := ⟨2, ![65536, 1024]⟩
abbrev S16384x1024 : Shape := ⟨2, ![16384, 1024]⟩
abbrev S65536x1 : Shape := ⟨2, ![65536, 1]⟩
abbrev S16384 : Shape := ⟨1, ![16384]⟩
abbrev S16384x1 : Shape := ⟨2, ![16384, 1]⟩
abbrev S16x1024x1024 : Shape := ⟨3, ![16, 1024, 1024]⟩
abbrev S16x1024 : Shape := ⟨2, ![16, 1024]⟩
abbrev S16x2048x1024 : Shape := ⟨3, ![16, 2048, 1024]⟩

abbrev nBuf : Space → Nat
  | .hbm => 84
  | .vmem => 0
  | .smem => 0
  | _ => 0

abbrev bufTy : (tb : Table) → Fin (tcTables nBuf tb) → BufTy
  | .hbm, ⟨0, _⟩ => ⟨S50265x1024, .f32⟩
  | .hbm, ⟨1, _⟩ => ⟨S16x4096, .i32⟩
  | .hbm, ⟨2, _⟩ => ⟨S16x4096, .i32⟩
  | .hbm, ⟨3, _⟩ => ⟨S16x4096, .i32⟩
  | .hbm, ⟨4, _⟩ => ⟨S16x4096, .i32⟩
  | .hbm, ⟨5, _⟩ => ⟨S_, .i32⟩
  | .hbm, ⟨6, _⟩ => ⟨S16x4096, .i32⟩
  | .hbm, ⟨7, _⟩ => ⟨S16x4096, .i1⟩
  | .hbm, ⟨8, _⟩ => ⟨S_, .i32⟩
  | .hbm, ⟨9, _⟩ => ⟨S16x4096, .i32⟩
  | .hbm, ⟨10, _⟩ => ⟨S16x4096, .i32⟩
  | .hbm, ⟨11, _⟩ => ⟨S16x4096, .i32⟩
  | .hbm, ⟨12, _⟩ => ⟨S16x4096x1, .i32⟩
  | .hbm, ⟨13, _⟩ => ⟨S16x4096x1024, .f32⟩
  | .hbm, ⟨14, _⟩ => ⟨S_, .i32⟩
  | .hbm, ⟨15, _⟩ => ⟨S16x4096, .i32⟩
  | .hbm, ⟨16, _⟩ => ⟨S16x4096, .i1⟩
  | .hbm, ⟨17, _⟩ => ⟨S_, .i32⟩
  | .hbm, ⟨18, _⟩ => ⟨S16x4096, .i32⟩
  | .hbm, ⟨19, _⟩ => ⟨S16x4096, .i32⟩
  | .hbm, ⟨20, _⟩ => ⟨S16x4096, .i32⟩
  | .hbm, ⟨21, _⟩ => ⟨S16x4096x1, .i32⟩
  | .hbm, ⟨22, _⟩ => ⟨S16x4096x1024, .f32⟩
  | .hbm, ⟨23, _⟩ => ⟨S16, .i32⟩
  | .hbm, ⟨24, _⟩ => ⟨S16x1, .i32⟩
  | .hbm, ⟨25, _⟩ => ⟨S_, .i32⟩
  | .hbm, ⟨26, _⟩ => ⟨S16x1, .i32⟩
  | .hbm, ⟨27, _⟩ => ⟨S16x1, .i32⟩
  | .hbm, ⟨28, _⟩ => ⟨S16x4096, .i32⟩
  | .hbm, ⟨29, _⟩ => ⟨S16x4096, .i32⟩
  | .hbm, ⟨30, _⟩ => ⟨S65536, .i32⟩
  | .hbm, ⟨31, _⟩ => ⟨S65536x1024, .f32⟩
  | .hbm, ⟨32, _⟩ => ⟨S_, .f32⟩
  | .hbm, ⟨33, _⟩ => ⟨S16384x1024, .f32⟩
  | .hbm, ⟨34, _⟩ => ⟨S65536x1, .i32⟩
  | .hbm, ⟨35, _⟩ => ⟨S16384x1024, .f32⟩
  | .hbm, ⟨36, _⟩ => ⟨S_, .f32⟩
  | .hbm, ⟨37, _⟩ => ⟨S65536, .f32⟩
  | .hbm, ⟨38, _⟩ => ⟨S_, .f32⟩
  | .hbm, ⟨39, _⟩ => ⟨S16384, .f32⟩
  | .hbm, ⟨40, _⟩ => ⟨S65536x1, .i32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16x1024x1024, .f32⟩
  | .hbm, ⟨49, _⟩ => ⟨S16x1024, .f32⟩
  | .hbm, ⟨50, _⟩ => ⟨S_, .f32⟩
  | .hbm, ⟨51, _⟩ => ⟨S16x1024, .f32⟩
  | .hbm, ⟨52, _⟩ => ⟨S16x1024, .i1⟩
  | .hbm, ⟨53, _⟩ => ⟨S16, .i32⟩
  | .hbm, ⟨54, _⟩ => ⟨S16x1, .i32⟩
  | .hbm, ⟨55, _⟩ => ⟨S_, .i32⟩
  | .hbm, ⟨56, _⟩ => ⟨S16x1, .i32⟩
  | .hbm, ⟨57, _⟩ => ⟨S16x1, .i32⟩
  | .hbm, ⟨58, _⟩ => ⟨S16x4096, .i32⟩
  | .hbm, ⟨59, _⟩ => ⟨S16x4096, .i32⟩
  | .hbm, ⟨60, _⟩ => ⟨S65536, .i32⟩
  | .hbm, ⟨61, _⟩ => ⟨S65536x1024, .f32⟩
  | .hbm, ⟨62, _⟩ => ⟨S_, .f32⟩
  | .hbm, ⟨63, _⟩ => ⟨S16384x1024, .f32⟩
  | .hbm, ⟨64, _⟩ => ⟨S65536x1, .i32⟩
  | .hbm, ⟨65, _⟩ => ⟨S16384x1024, .f32⟩
  | .hbm, ⟨66, _⟩ => ⟨S_, .f32⟩
  | .hbm, ⟨67, _⟩ => ⟨S65536, .f32⟩
  | .hbm, ⟨68, _⟩ => ⟨S_, .f32⟩
  | .hbm, ⟨69, _⟩ => ⟨S16384, .f32⟩
  | .hbm, ⟨70, _⟩ => ⟨S65536x1, .i32⟩
  | .hbm, ⟨71, _⟩ => ⟨S16384, .f32⟩
  | .hbm, ⟨72, _⟩ => ⟨S_, .f32⟩
  | .hbm, ⟨73, _⟩ => ⟨S16384, .f32⟩
  | .hbm, ⟨74, _⟩ => ⟨S16384, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S16x1024x1024, .f32⟩
  | .hbm, ⟨79, _⟩ => ⟨S16x1024, .f32⟩
  | .hbm, ⟨80, _⟩ => ⟨S_, .f32⟩
  | .hbm, ⟨81, _⟩ => ⟨S16x1024, .f32⟩
  | .hbm, ⟨82, _⟩ => ⟨S16x1024, .i1⟩
  | .hbm, ⟨83, _⟩ => ⟨S16x2048x1024, .f32⟩
  | _, _ => ⟨S50265x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16_S16x1_0 : S16.BroadcastsInDim S16x1 (![0] : Fin 1 → Fin S16x1.rank)
  bcast_S_S16x1 : S_.BroadcastsInDim S16x1 (![] : Fin 0 → Fin S16x1.rank)
  bcast_S16x1_S16x4096_0_1 : S16x1.BroadcastsInDim S16x4096 (![0, 1] : Fin 2 → Fin S16x4096.rank)
  shapeCasts_S16x4096_S65536 : S16x4096.ShapeCasts S65536
  shapeCasts_S16x4096x1024_S65536x1024 : S16x4096x1024.ShapeCasts S65536x1024
  bcast_S_S16384x1024 : S_.BroadcastsInDim S16384x1024 (![] : Fin 0 → Fin S16384x1024.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  shapeCasts_S16384x1024_S16x1024x1024 : S16384x1024.ShapeCasts S16x1024x1024
  shapeCasts_S16384_S16x1024 : S16384.ShapeCasts S16x1024
  bcast_S_S16x1024 : S_.BroadcastsInDim S16x1024 (![] : Fin 0 → Fin S16x1024.rank)
  concatenates_S16x1024x1024_S16x1024x1024_S16x2048x1024_d1 : Shape.Concatenates [S16x1024x1024, S16x1024x1024] S16x2048x1024 1
  gather_S50265x1024_S16x4096x1_S16x4096x1024_2_0_n_n_0_2_11024_wf : GatherDims.WF S50265x1024 S16x4096x1 S16x4096x1024 [2] [0] [] [0] [] 2 ![1, 1024]
  scatter_S16384x1024_S65536x1_S65536x1024_1_0_0_1_wf : ScatterDims.WF S16384x1024 S65536x1 S65536x1024 [1] [0] [0] 1
  scatter_S16384_S65536x1_S65536_n_0_0_1_wf : ScatterDims.WF S16384 S65536x1 S65536 [] [0] [0] 1

variable [Facts₀]

def gather_S50265x1024_S16x4096x1_S16x4096x1024_2_0_n_n_0_2_11024 : GatherDims S50265x1024 S16x4096x1 S16x4096x1024 where
  offsetDims := [2]
  collapsedSliceDims := [0]
  operandBatchingDims := []
  startIndicesBatchingDims := []
  startIndexMap := [0]
  indexVectorDim := 2
  sliceSizes := ![1, 1024]
  wf := gather_S50265x1024_S16x4096x1_S16x4096x1024_2_0_n_n_0_2_11024_wf
def scatter_S16384x1024_S65536x1_S65536x1024_1_0_0_1 : ScatterDims S16384x1024 S65536x1 S65536x1024 where
  updateWindowDims := [1]
  insertedWindowDims := [0]
  scatterDimsToOperandDims := [0]
  indexVectorDim := 1
  wf := scatter_S16384x1024_S65536x1_S65536x1024_1_0_0_1_wf
def scatter_S16384_S65536x1_S65536_n_0_0_1 : ScatterDims S16384 S65536x1 S65536 where
  updateWindowDims := []
  insertedWindowDims := [0]
  scatterDimsToOperandDims := [0]
  indexVectorDim := 1
  wf := scatter_S16384_S65536x1_S65536_n_0_0_1_wf

class Facts : Prop extends Facts₀ where

variable [Facts]
-- ==== Proof.SegMean.lean ====
import Idealize.ShloMosaic.PureOps.Ideal
import Idealize.ShloMosaic.Lib.ValueIdx

/-!
# Per-group means of token features: the specification both programs meet

For one token stream, `f b t d` is coordinate `d` of the feature vector of token `t` of sample `b`
(16 samples, 4096 tokens, 1024 coordinates) and `s b t` is the group that token belongs to, an `i32` word.
Group `g` of sample `b` collects the tokens `t` with `s b t = g`. Its mean is the sum of their feature
vectors divided by their number, the divisor raised to `1` for an empty group (whose sum is `0`):

  mean f s (b, g, d) = (∑ t, [s b t = g] · f b t d) / max (∑ t, [s b t = g]) 1

as extended reals. Nothing here mentions a program: the kernel reaches this through a one-hot matrix product per
sample, the reference through one scatter-add over all samples' tokens at once.
-/

noncomputable section

namespace Cert.SegMean

open Idealize.ShloMosaic Idealize.ShloMosaic.ValueIdx

/-- Token features of one stream: sample, token, coordinate. -/
abbrev SFeat : Shape := ⟨3, ![16, 4096, 1024]⟩
/-- Group ids of one stream: sample, token. -/
abbrev SSeg : Shape := ⟨2, ![16, 4096]⟩
/-- Group means of one stream: sample, group, coordinate. -/
abbrev SMean : Shape := ⟨3, ![16, 1024, 1024]⟩

/-- The sum over the tokens of sample `b` that lie in group `g` of coordinate `d` of their features. -/
def groupSum (f : SFeat.Idx → EReal) (s : IVec SSeg 32) (b : Fin 16) (g d : Fin 1024) : EReal :=
  ∑ t : Fin 4096, if s (ix2 b t) = BitVec.ofNat 32 g.val then f (ix3 b t d) else 0

/-- The number of tokens of sample `b` that lie in group `g`. -/
def groupCount (s : IVec SSeg 32) (b : Fin 16) (g : Fin 1024) : EReal :=
  ∑ t : Fin 4096, if s (ix2 b t) = BitVec.ofNat 32 g.val then 1 else 0

/-- The mean of every group of every sample, an empty group's divisor raised to one. -/
def mean (f : SFeat.Idx → EReal) (s : IVec SSeg 32) : SMean.Idx → EReal := fun i =>
  Ideal.div (groupSum f s (i 0) (i 1) (i 2)) (max (groupCount s (i 0) (i 1)) 1)

theorem mean_apply (f : SFeat.Idx → EReal) (s : IVec SSeg 32) (b : Fin 16) (g d : Fin 1024) :
    mean f s (ix3 b g d) = Ideal.div (groupSum f s b g d) (max (groupCount s b g) 1) := rfl

end Cert.SegMean

end
-- ==== Proof.KernelPayload.lean ====
import proofs.«406278_j87316685128183_1_alg».proof.Proof.Gen.KernelIdeal.Skeleton
import proofs.«406278_j87316685128183_1_alg».proof.Proof.SegMean
import Idealize.ShloMosaic.PureOps.Ideal.Laws
import Idealize.ShloMosaic.Lib.ValueIdx
import Idealize.ShloMosaic.Lib.Pipeline.Value
import Idealize.ShloMosaic.Lib.StableHlo.Predicate

/-!
# What the kernel body stores, read at an index

The body loads one sample's gathered features `x0` ([1, 4096, 1024]) and its group ids `x1` ([1, 4096, 1], a
column), forms the one-hot matrix `oh t g = [x1 t = g]` (a comparison against a lane iota, widened and converted),
contracts it over the token axis with the features (the sums) and with a column of ones (the counts), and stores
`sums / max counts 1`. At the ideal instance a conversion of format is the identity and each product into a zero
accumulator is the plain sum over the 4096 tokens, so the stored block at (0, g, d) is

  (∑ t, [x1 t = g] · x0 t d) / max (∑ t, [x1 t = g] · 1) 1 .
-/

set_option maxRecDepth 16384

noncomputable section

namespace Cert.KernelIdeal.Pay

open Cert.KernelIdeal Cert.KernelIdeal.Gen
open Idealize.ShloMosaic Idealize.ShloMosaic.ValueIdx

/-! ## The two contractions' operand indices, axis by axis -/

theorem lhsS_0 (i : S1024x1024.Idx) (q : dot_S4096x1024_S4096x1024_S1024x1024_0_0_1_1_n_n.contr.Idx) :
    (dot_S4096x1024_S4096x1024_S1024x1024_0_0_1_1_n_n.lhsIdx i q 0).val = (q ⟨0, by decide⟩).val :=
  dot_S4096x1024_S4096x1024_S1024x1024_0_0_1_1_n_n.lhsIdx_val_of_single rfl i q
theorem lhsS_1 (i : S1024x1024.Idx) (q : dot_S4096x1024_S4096x1024_S1024x1024_0_0_1_1_n_n.contr.Idx) :
    (dot_S4096x1024_S4096x1024_S1024x1024_0_0_1_1_n_n.lhsIdx i q 1).val = (i 0).val := by
  unfold DotDims.lhsIdx
  rw [dif_neg (show ¬(1 : Fin S4096x1024.rank) ∈ dot_S4096x1024_S4096x1024_S1024x1024_0_0_1_1_n_n.lhsBatch by decide), dif_pos (show (1 : Fin S4096x1024.rank) ∈ dot_S4096x1024_S4096x1024_S1024x1024_0_0_1_1_n_n.lhsNonContracting by decide)]
  rfl
theorem rhsS_0 (i : S1024x1024.Idx) (q : dot_S4096x1024_S4096x1024_S1024x1024_0_0_1_1_n_n.contr.Idx) :
    (dot_S4096x1024_S4096x1024_S1024x1024_0_0_1_1_n_n.rhsIdx i q 0).val = (q ⟨0, by decide⟩).val :=
  dot_S4096x1024_S4096x1024_S1024x1024_0_0_1_1_n_n.rhsIdx_val_of_single rfl i q
theorem rhsS_1 (i : S1024x1024.Idx) (q : dot_S4096x1024_S4096x1024_S1024x1024_0_0_1_1_n_n.contr.Idx) :
    (dot_S4096x1024_S4096x1024_S1024x1024_0_0_1_1_n_n.rhsIdx i q 1).val = (i 1).val := by
  unfold DotDims.rhsIdx
  rw [dif_neg (show ¬(1 : Fin S4096x1024.rank) ∈ dot_S4096x1024_S4096x1024_S1024x1024_0_0_1_1_n_n.rhsBatch by decide), dif_pos (show (1 : Fin S4096x1024.rank) ∈ dot_S4096x1024_S4096x1024_S1024x1024_0_0_1_1_n_n.rhsNonContracting by decide)]
  rfl

theorem lhsC_0 (i : S1024x1.Idx) (q : dot_S4096x1024_S4096x1_S1024x1_0_0_1_1_n_n.contr.Idx) :
    (dot_S4096x1024_S4096x1_S1024x1_0_0_1_1_n_n.lhsIdx i q 0).val = (q ⟨0, by decide⟩).val :=
  dot_S4096x1024_S4096x1_S1024x1_0_0_1_1_n_n.lhsIdx_val_of_single rfl i q
theorem lhsC_1 (i : S1024x1.Idx) (q : dot_S4096x1024_S4096x1_S1024x1_0_0_1_1_n_n.contr.Idx) :
    (dot_S4096x1024_S4096x1_S1024x1_0_0_1_1_n_n.lhsIdx i q 1).val = (i 0).val := by
  unfold DotDims.lhsIdx
  rw [dif_neg (show ¬(1 : Fin S4096x1024.rank) ∈ dot_S4096x1024_S4096x1_S1024x1_0_0_1_1_n_n.lhsBatch by decide), dif_pos (show (1 : Fin S4096x1024.rank) ∈ dot_S4096x1024_S4096x1_S1024x1_0_0_1_1_n_n.lhsNonContracting by decide)]
  rfl
theorem rhsC_0 (i : S1024x1.Idx) (q : dot_S4096x1024_S4096x1_S1024x1_0_0_1_1_n_n.contr.Idx) :
    (dot_S4096x1024_S4096x1_S1024x1_0_0_1_1_n_n.rhsIdx i q 0).val = (q ⟨0, by decide⟩).val :=
  dot_S4096x1024_S4096x1_S1024x1_0_0_1_1_n_n.rhsIdx_val_of_single rfl i q
theorem rhsC_1 (i : S1024x1.Idx) (q : dot_S4096x1024_S4096x1_S1024x1_0_0_1_1_n_n.contr.Idx) :
    (dot_S4096x1024_S4096x1_S1024x1_0_0_1_1_n_n.rhsIdx i q 1).val = (i 1).val := by
  unfold DotDims.rhsIdx
  rw [dif_neg (show ¬(1 : Fin S4096x1.rank) ∈ dot_S4096x1024_S4096x1_S1024x1_0_0_1_1_n_n.rhsBatch by decide), dif_pos (show (1 : Fin S4096x1.rank) ∈ dot_S4096x1024_S4096x1_S1024x1_0_0_1_1_n_n.rhsNonContracting by decide)]
  rfl

/-! ## The two products at an index: plain sums over the token axis -/

/-- `onehotᵀ · feats` at (g, d): the sum over tokens of the one-hot entry times the feature. -/
theorem matmulS_apply (l r : FVec Ideal S4096x1024 .bf16) (g d : Fin 1024) :
    matmul dot_S4096x1024_S4096x1024_S1024x1024_0_0_1_1_n_n none l r (constant S1024x1024 .f32 0x00000000#32) (ix2 g d)
      = ∑ t : Fin 4096, l (ix2 t g) * r (ix2 t d) := by
  simp only [matmul]
  rw [Ideal.matmul_constant_zero_apply, ← Equiv.sum_comp (ValueIdx.contrEquiv1 dot_S4096x1024_S4096x1024_S1024x1024_0_0_1_1_n_n 4096 rfl rfl).symm]
  refine Finset.sum_congr rfl fun k _ => ?_
  have hk := ValueIdx.contrEquiv1_symm_val dot_S4096x1024_S4096x1024_S1024x1024_0_0_1_1_n_n 4096 rfl rfl k
  have el : dot_S4096x1024_S4096x1024_S1024x1024_0_0_1_1_n_n.lhsIdx (ix2 g d) ((ValueIdx.contrEquiv1 dot_S4096x1024_S4096x1024_S1024x1024_0_0_1_1_n_n 4096 rfl rfl).symm k) = ix2 k g := funext fun a => Fin.ext (by
    match a with
    | ⟨0, _⟩ => exact (lhsS_0 _ _).trans hk
    | ⟨1, _⟩ => exact lhsS_1 _ _)
  have er : dot_S4096x1024_S4096x1024_S1024x1024_0_0_1_1_n_n.rhsIdx (ix2 g d) ((ValueIdx.contrEquiv1 dot_S4096x1024_S4096x1024_S1024x1024_0_0_1_1_n_n 4096 rfl rfl).symm k) = ix2 k d := funext fun a => Fin.ext (by
    match a with
    | ⟨0, _⟩ => exact (rhsS_0 _ _).trans hk
    | ⟨1, _⟩ => exact rhsS_1 _ _)
  rw [el, er]

/-- `onehotᵀ · ones` at (g, 0): the sum over tokens of the one-hot entry times the column's entry. -/
theorem matmulC_apply (l : FVec Ideal S4096x1024 .bf16) (r : FVec Ideal S4096x1 .bf16) (g : Fin 1024) :
    matmul dot_S4096x1024_S4096x1_S1024x1_0_0_1_1_n_n none l r (constant S1024x1 .f32 0x00000000#32) (ix2 g 0)
      = ∑ t : Fin 4096, l (ix2 t g) * r (ix2 t 0) := by
  simp only [matmul]
  rw [Ideal.matmul_constant_zero_apply, ← Equiv.sum_comp (ValueIdx.contrEquiv1 dot_S4096x1024_S4096x1_S1024x1_0_0_1_1_n_n 4096 rfl rfl).symm]
  refine Finset.sum_congr rfl fun k _ => ?_
  have hk := ValueIdx.contrEquiv1_symm_val dot_S4096x1024_S4096x1_S1024x1_0_0_1_1_n_n 4096 rfl rfl k
  have el : dot_S4096x1024_S4096x1_S1024x1_0_0_1_1_n_n.lhsIdx (ix2 g 0) ((ValueIdx.contrEquiv1 dot_S4096x1024_S4096x1_S1024x1_0_0_1_1_n_n 4096 rfl rfl).symm k) = ix2 k g := funext fun a => Fin.ext (by
    match a with
    | ⟨0, _⟩ => exact (lhsC_0 _ _).trans hk
    | ⟨1, _⟩ => exact lhsC_1 _ _)
  have er : dot_S4096x1024_S4096x1_S1024x1_0_0_1_1_n_n.rhsIdx (ix2 g 0) ((ValueIdx.contrEquiv1 dot_S4096x1024_S4096x1_S1024x1_0_0_1_1_n_n 4096 rfl rfl).symm k) = ix2 k 0 := funext fun a => Fin.ext (by
    match a with
    | ⟨0, _⟩ => exact (rhsC_0 _ _).trans hk
    | ⟨1, _⟩ => exact rhsC_1 _ _)
  rw [el, er]

/-! ## A one-hot entry -/

/-- An equality test of two words, widened to 32 bits and converted, is `1` where they are equal and `0` elsewhere. -/
theorem onehot_entry (a b : BitVec 32) :
    ((((IntOp.cmpi .eq a b).setWidth 32).toInt : ℝ) : EReal) = if a = b then 1 else 0 := by
  by_cases h : a = b
  · rw [if_pos h, (StableHlo.Predicate.cmpi_eq_iff).2 h]; norm_num
  · rw [if_neg h]
    have : IntOp.cmpi .eq a b = 0#1 := ValueIdx.eq_zero_of_ne_one (fun e => h ((StableHlo.Predicate.cmpi_eq_iff).1 e))
    rw [this]; norm_num

/-- The bf16 word `0x3F80` is one. -/
theorem one_bf16 : Ideal.ofBits .bf16 0x3F80#16 = 1 := by
  simp [Ideal.ofBits, Ideal.ieee, -EReal.coe_mul]; norm_num
/-- The f32 word `0x3F800000` is one. -/
theorem one_f32 : Ideal.ofBits .f32 0x3F800000#32 = 1 := by
  simp [Ideal.ofBits, Ideal.ieee, -EReal.coe_mul]; norm_num

/-! ## The body's pieces at an index -/

/-- A [1, n, m] block viewed [n, m] reads (p, q) at (0, p, q). -/
theorem dropUnit_ix2 {α : Type} {n m : Nat} (v : (⟨3, ![1, n, m]⟩ : Shape).Idx → α)
    (h : (⟨3, ![1, n, m]⟩ : Shape).ShapeCasts ⟨2, ![n, m]⟩) (p : Fin n) (q : Fin m) :
    shapeCast ⟨2, ![n, m]⟩ v h (ix2 p q) = v (ix3 0 p q) := by
  rw [shapeCast_dropUnit_apply]
  refine congrArg v (funext fun a => ?_)
  match a with
  | ⟨0, _⟩ => rfl
  | ⟨1, _⟩ => rfl
  | ⟨2, _⟩ => rfl

/-- An [n, m] value viewed [1, n, m] reads (0, p, q) at (p, q). -/
theorem addUnit_ix3 {α : Type} {n m : Nat} (v : (⟨2, ![n, m]⟩ : Shape).Idx → α)
    (h : (⟨2, ![n, m]⟩ : Shape).ShapeCasts ⟨3, ![1, n, m]⟩) (p : Fin n) (q : Fin m) :
    shapeCast ⟨3, ![1, n, m]⟩ v h (ix3 0 p q) = v (ix2 p q) := by
  rw [shapeCast_addUnit_apply]
  refine congrArg v (funext fun a => ?_)
  match a with
  | ⟨0, _⟩ => rfl
  | ⟨1, _⟩ => rfl

/-- A column [n, 1] laid along the rows of [n, m] reads (p, q) at (p, 0). -/
theorem bcastCol_ix2 {α : Type} {n m : Nat} (v : (⟨2, ![n, 1]⟩ : Shape).Idx → α)
    (h : (⟨2, ![n, 1]⟩ : Shape).Broadcasts ⟨2, ![n, m]⟩) (hn : n ≠ 1) (p : Fin n) (q : Fin m) :
    broadcastTo ⟨2, ![n, m]⟩ v h (ix2 p q) = v (ix2 p 0) :=
  broadcastTo_apply v h (ix2 p q) (ix2 p 0) (fun a => by
    match a with
    | ⟨0, _⟩ => exact (if_neg hn).symm
    | ⟨1, _⟩ => rfl)

/-- The one-hot matrix at (t, g): `1` where token `t`'s group id is the word `g`, else `0`. -/
theorem onehot_apply (x1 : Vec Ideal S1x4096x1 .i32) (h1 : S1x4096x1.ShapeCasts S4096x1) (h2 : S4096x1.Broadcasts S4096x1024)
    (h3 : S4096x1024.Iotas .tc 32 [1]) (h4 : 1 < 32) (h5 : FTy.bits .bf16 < FTy.bits .f32) (t : Fin 4096) (g : Fin 1024) :
    (truncf .bf16 (sitofp .f32 (extui 32 (cmpi .eq (broadcastTo S4096x1024 (shapeCast S4096x1 x1 h1) h2) (iota .tc S4096x1024 32 [1] h3)) h4) : FVec Ideal S4096x1024 .f32) h5 : FVec Ideal S4096x1024 .bf16) (ix2 t g)
      = if x1 (ix3 0 t 0) = BitVec.ofNat 32 g.val then 1 else 0 := by
  rw [truncf_apply, sitofp_apply, extui_apply]
  show ((((IntOp.cmpi .eq (broadcastTo S4096x1024 (shapeCast S4096x1 x1 h1) h2 (ix2 t g)) (iota .tc S4096x1024 32 [1] h3 (ix2 t g))).setWidth 32).toInt : ℝ) : EReal) = _
  rw [bcastCol_ix2 _ h2 (by decide), dropUnit_ix2, iota_single_apply, onehot_entry]

/-- WHAT THE BODY STORES at (0, g, d): the sum over the tokens in group `g` of coordinate `d` of their features,
    divided by their number raised to at least one. -/
theorem pay_apply (x0 : Vec Ideal S1x4096x1024 .bf16) (x1 : Vec Ideal S1x4096x1 .i32) (g d : Fin 1024) :
    k0_pay1 (F := Ideal) x0 x1 (ix3 0 g d)
      = Ideal.div (∑ t : Fin 4096, if x1 (ix3 0 t 0) = BitVec.ofNat 32 g.val then x0 (ix3 0 t d) else 0)
          (max (∑ t : Fin 4096, if x1 (ix3 0 t 0) = BitVec.ofNat 32 g.val then 1 else 0) 1) := by
  unfold k0_pay1
  dsimp only
  rw [addUnit_ix3, divf_apply, matmulS_apply, bcastCol_ix2 _ _ (by decide), maximumf_apply, matmulC_apply]
  refine congrArg₂ Ideal.div (Finset.sum_congr rfl fun t _ => ?_) (congrArg₂ max (Finset.sum_congr rfl fun t _ => ?_) ?_)
  · rw [onehot_apply, dropUnit_ix2, ite_mul, one_mul, zero_mul]
  · rw [onehot_apply, broadcast_apply, Ideal.ofBits_def, one_bf16, mul_one]
  · rw [broadcast_apply, Ideal.ofBits_def, one_f32]

/-! ## One sample's stored block is that sample's slab of the group means -/

theorem hz3 : (![0, 0, 0] : Fin 3 → Nat) = fun _ => 0 := funext fun a => by fin_cases a <;> rfl

/-- If the loaded feature block is sample `b`'s slab of `f` and the loaded id column is sample `b`'s row of `s`,
    the stored block at `y = (0, g, d)` is the group mean at `(b, g, d)`. -/
theorem pay_block (x0 : Vec Ideal S1x4096x1024 .bf16) (x1 : Vec Ideal S1x4096x1 .i32)
    (f : SegMean.SFeat.Idx → EReal) (s : IVec SegMean.SSeg 32) (b : Fin 16)
    (h0 : ∀ (k : Fin 4096) (d : Fin 1024), x0 (ix3 0 k d) = f (ix3 b k d))
    (h1 : ∀ k : Fin 4096, x1 (ix3 0 k 0) = s (ix2 b k))
    (y : S1x1024x1024.Idx) (i : SegMean.SMean.Idx)
    (hi0 : (i 0).val = b.val) (hi1 : (i 1).val = (y 1).val) (hi2 : (i 2).val = (y 2).val) :
    k0_pay1 (F := Ideal) x0 x1 y = SegMean.mean f s i := by
  obtain ⟨p, g, d, rfl⟩ : ∃ (p : Fin 1) (g d : Fin 1024), y = ix3 p g d := ⟨y 0, y 1, y 2, eq_ix3 y⟩
  obtain rfl : p = 0 := Subsingleton.elim _ _
  obtain rfl : i = ix3 b g d := by
    rw [eq_ix3 i]
    exact congr (congr (congrArg ix3 (Fin.ext hi0)) (Fin.ext hi1)) (Fin.ext hi2)
  rw [pay_apply, SegMean.mean_apply]
  unfold SegMean.groupSum SegMean.groupCount
  simp only [h0, h1]

/-- The second call's body is the same function. -/
theorem k1_pay1_eq : @k1_pay1 = @k0_pay1 := rfl

end Cert.KernelIdeal.Pay

end
-- ==== Proof.KernelRegion0.lean ====
import proofs.«406278_j87316685128183_1_alg».proof.Proof.Gen.KernelIdeal.Frame
import proofs.«406278_j87316685128183_1_alg».proof.Proof.KernelPayload

/-!
# The first call's output array after its run

The first `pallas_call` walks a grid of 16 points, one per sample. At point `t` it fetches sample `t`'s slab of the
gathered features (window 0, array `main_v7`) and sample `t`'s column of group ids (window 1, array `main_v15`),
runs the body, and writes the stored block back as sample `t`'s slab of `main_v16` (window 2). The slabs of the 16
points tile the output array, so after the run it holds the group means of the whole stream.
-/

set_option maxRecDepth 16384

noncomputable section

namespace Cert.KernelIdeal.Region0

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The sample a grid point works on. -/
def smp (t : Fin cfg0.N) : Fin 16 := ⟨t.val, lt_of_lt_of_eq t.isLt N_0⟩

/-- The fetched feature block at point `t` is sample `t`'s slab of the features array. -/
theorem blk_feat (c : Dev nD) (t : Fin cfg0.N) (k : Fin 4096) (d : Fin 1024) :
    iblk0 V c 0 t (ix3 0 k d) = (V c main_v7 : S16x4096x1024.Idx → EReal) (ix3 (smp t) k d) := by
  obtain ⟨e0, e1, e2, -⟩ := idx_facts t
  show (V c main_v7 : S16x4096x1024.Idx → EReal) (((cfg0.win 0).blk t).view.emb (ix3 0 k d)) = _
  refine congrArg _ (funext fun a => Fin.ext ?_)
  match a with
  | ⟨0, _⟩ => show win0_0.index t (0 : Fin 3) * 1 + 1 * 0 = t.val; omega
  | ⟨1, _⟩ => show win0_0.index t (1 : Fin 3) * 4096 + 1 * k.val = k.val; omega
  | ⟨2, _⟩ => show win0_0.index t (2 : Fin 3) * 1024 + 1 * d.val = d.val; omega

/-- The fetched id column at point `t` is sample `t`'s column of the ids array. -/
theorem blk_seg (c : Dev nD) (t : Fin cfg0.N) (k : Fin 4096) :
    iblk0 V c 1 t (ix3 0 k 0) = (V c main_v15 : S16x4096x1.Idx → BitVec 32) (ix3 (smp t) k 0) := by
  obtain ⟨-, -, -, e0, e1, e2, -⟩ := idx_facts t
  show (V c main_v15 : S16x4096x1.Idx → BitVec 32) (((cfg0.win 1).blk t).view.emb (ix3 0 k 0)) = _
  refine congrArg _ (funext fun a => Fin.ext ?_)
  match a with
  | ⟨0, _⟩ => show win0_1.index t (0 : Fin 3) * 1 + 1 * 0 = t.val; omega
  | ⟨1, _⟩ => show win0_1.index t (1 : Fin 3) * 4096 + 1 * k.val = k.val; omega
  | ⟨2, _⟩ => show win0_1.index t (2 : Fin 3) * 1 + 1 * 0 = 0; omega

/-- WHAT POINT `t` WRITES BACK is sample `t`'s slab of the stream's group means, for any ids `s` the ids array's
    column spells. -/
theorem flushed_eq (c : Dev nD) (s : IVec SegMean.SSeg 32)
    (hs : ∀ (b : Fin 16) (k : Fin 4096), (V c main_v15 : S16x4096x1.Idx → BitVec 32) (ix3 b k 0) = s (ix2 b k))
    (t : Fin cfg0.N) :
    (dat0 V c).flushed 2 t
      = ((cfg0.win 2).blk t).view.read (Elt Ideal) (SegMean.mean (V c main_v7 : S16x4096x1024.Idx → EReal) s) := by
  show (cfg0.win 2).cut (grid0.coords t) ((dat0 V c).after 2 t) = _
  rw [after0_2]
  unfold out0_2
  rw [View.canon_unit_zero hz3]
  simp only [View.ld_unit_zero (S := S1x4096x1024) hz3, View.ld_unit_zero (S := S1x4096x1) hz3]
  obtain ⟨-, -, -, -, -, -, e0, e1, e2⟩ := idx_facts t
  funext j
  show k0_pay1 (F := Ideal) (iblk0 V c 0 t) (iblk0 V c 1 t) j
    = SegMean.mean (V c main_v7 : S16x4096x1024.Idx → EReal) s (((cfg0.win 2).blk t).view.emb j)
  refine pay_block (iblk0 V c 0 t) (iblk0 V c 1 t) (V c main_v7 : S16x4096x1024.Idx → EReal) s (smp t)
    (fun k d => blk_feat V c t k d) (fun k => (blk_seg V c t k).trans (hs (smp t) k)) j _ ?_ ?_ ?_
  · show win0_2.index t (0 : Fin 3) * 1 + 1 * (j 0).val = t.val
    have hj : (j 0).val < 1 := (j 0).isLt
    omega
  · show win0_2.index t (1 : Fin 3) * 1024 + 1 * (j 1).val = (j 1).val; omega
  · show win0_2.index t (2 : Fin 3) * 1024 + 1 * (j 2).val = (j 2).val; omega

/-- An index of the output array is in point `t`'s block iff each coordinate is in the block's range on its axis. -/
theorem mem_blk (t : Fin cfg0.N) (i : S16x1024x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v16).slice (win0_2.rect t)).set ↔ _
  rw [View.set_slice_whole, Rect.mem_set_unit]
  exact Iff.rfl

/-- Every index of the output array lies in the block of the point that works on its sample. -/
theorem cover (i : S16x1024x1024.Idx) :
    ∃ t : Fin cfg0.N, (cfg0.win 2).flush t = true ∧ i ∈ ((cfg0.win 2).blk t).view.set := by
  have h0 : (i 0).val < 16 := (i 0).isLt
  have h1 : (i 1).val < 1024 := (i 1).isLt
  have h2 : (i 2).val < 1024 := (i 2).isLt
  refine ⟨⟨(i 0).val, lt_of_lt_of_eq h0 N_0.symm⟩, flush0_2 _, ?_⟩
  rw [mem_blk]
  obtain ⟨-, -, -, -, -, -, e0, e1, e2⟩ := idx_facts ⟨(i 0).val, lt_of_lt_of_eq h0 N_0.symm⟩
  replace e0 : win0_2.index ⟨(i 0).val, lt_of_lt_of_eq h0 N_0.symm⟩ (0 : Fin 3) = (i 0).val := e0
  intro a
  match a with
  | ⟨0, _⟩ => show win0_2.index _ (0 : Fin 3) * 1 ≤ (i 0).val ∧ (i 0).val < win0_2.index _ (0 : Fin 3) * 1 + 1; rw [e0]; omega
  | ⟨1, _⟩ => show win0_2.index _ (1 : Fin 3) * 1024 ≤ (i 1).val ∧ (i 1).val < win0_2.index _ (1 : Fin 3) * 1024 + 1024; rw [e1]; omega
  | ⟨2, _⟩ => show win0_2.index _ (2 : Fin 3) * 1024 ≤ (i 2).val ∧ (i 2).val < win0_2.index _ (2 : Fin 3) * 1024 + 1024; rw [e2]; omega

/-- THE OUTPUT ARRAY AFTER THE RUN: the group means of the stream whose features the region finds in `main_v7` and
    whose group ids its ids array's column spells. -/
theorem out_eq (c : Dev nD) (s : IVec SegMean.SSeg 32)
    (hs : ∀ (b : Fin 16) (k : Fin 4096), (V c main_v15 : S16x4096x1.Idx → BitVec 32) (ix3 b k 0) = s (ix2 b k)) :
    (dat0 V c).arrAt 2 cfg0.N = SegMean.mean (V c main_v7 : S16x4096x1024.Idx → EReal) s :=
  (dat0 V c).arrAt_eq_of_cover 2 (SegMean.mean (V c main_v7 : S16x4096x1024.Idx → EReal) s)
    (fun t _ => flushed_eq V c s hs t) cover

end Cert.KernelIdeal.Region0

end
-- ==== Proof.KernelValue.lean ====
import proofs.«406278_j87316685128183_1_alg».proof.Proof.Gen.KernelIdeal.Frame
import proofs.«406278_j87316685128183_1_alg».proof.Proof.KernelRegion0
import proofs.«406278_j87316685128183_1_alg».proof.Proof.KernelRegion1
import Idealize.ShloMosaic.Lib.StableHlo.Run

/-!
# The idealized kernel's result as one function of the arguments

`@main` gathers, for each of the two token streams, the embedding rows its token ids name (negative ids wrapped
once, as jnp indexes), lays the stream's group ids out as a column, runs the group-mean call on each stream, and joins
the two outputs along the group axis, the second stream's first. Reading the generated boundary contents back through
the host stretches and the two regions' output arrays gives the result buffer as

  concatenate [ mean (rows embed amr_token_ids) amr_segments , mean (rows embed text_token_ids) text_segments ].
-/

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo

/-- The embedding rows a stream's token ids name: the table (its format changed, which at the ideal instance
    changes nothing) gathered at the ids, a negative id first raised by the table's height. -/
def rows (x : FVec Ideal S50265x1024 .f32) (ids : IVec S16x4096 32) : S16x4096x1024.Idx → EReal :=
  (Host.gather gather_S50265x1024_S16x4096x1_S16x4096x1024_2_0_n_n_0_2_11024
    (truncf .bf16 x bitsLt_bf16_f32 : FVec Ideal S50265x1024 .bf16)
    (broadcastInDim S16x4096x1 ![0, 1] bcast_S16x4096_S16x4096x1_0_1
      (select (cmpi .slt ids (broadcastInDim S16x4096 ![] bcast_S_S16x4096 (constantI S_ 32 0#32)))
        (addi ids (broadcastInDim S16x4096 ![] bcast_S_S16x4096 (constantI S_ 32 50265#32))) ids)) : FVec Ideal S16x4096x1024 .bf16)

variable (m : (ℓ : Loc nD τ sig) → Buf (Elt Ideal) ℓ) (ρ : Dev nD → PrngReg)

/-! ## The first region's entry arrays -/

set_option maxHeartbeats 4000000 in
/-- The first call's features array: the first stream's rows. -/
theorem V1_feat (c : Dev nD) :
    (V1 m ρ c main_v7 : S16x4096x1024.Idx → EReal)
      = rows (m ((c.tc : Thread nD τ).loc main_arg0)) (m ((c.tc : Thread nD τ).loc main_arg1)) := by
  show StableHlo.after hostOps0 (W0 m ρ c) (Proc.devRef .tc main_v7) = _
  after_results_simp <;> rfl

set_option maxHeartbeats 4000000 in
/-- The first call's ids array is the first stream's group ids as a column. -/
theorem V1_seg (c : Dev nD) (b : Fin 16) (k : Fin 4096) :
    (V1 m ρ c main_v15 : S16x4096x1.Idx → BitVec 32) (ix3 b k 0) = m ((c.tc : Thread nD τ).loc main_arg2) (ix2 b k) := by
  have e : (V1 m ρ c main_v15 : S16x4096x1.Idx → BitVec 32)
      = broadcastInDim S16x4096x1 ![0, 1] bcast_S16x4096_S16x4096x1_0_1 (m ((c.tc : Thread nD τ).loc main_arg2)) := by
    show StableHlo.after hostOps0 (W0 m ρ c) (Proc.devRef .tc main_v15) = _
    after_results_simp <;> rfl
  rw [e]
  exact broadcastInDim_apply _ bcast_S16x4096_S16x4096x1_0_1 _ (ix3 b k 0) (ix2 b k) (fun a => by
    match a with
    | ⟨0, _⟩ => rfl
    | ⟨1, _⟩ => rfl)

/-! ## The second region's entry arrays -/

set_option maxHeartbeats 4000000 in
/-- The second call's features array: the second stream's rows (the first region and the stretch between do not
    write it). -/
theorem V3_feat (c : Dev nD) :
    (V3 m ρ c main_v14 : S16x4096x1024.Idx → EReal)
      = rows (m ((c.tc : Thread nD τ).loc main_arg0)) (m ((c.tc : Thread nD τ).loc main_arg3)) := by
  have e3 : V3 m ρ c main_v14 = W2 m ρ c (Proc.devRef .tc main_v14) := by
    show StableHlo.after hostOps1 (W2 m ρ c) (Proc.devRef .tc main_v14) = _
    after_results
  have e2 : W2 m ρ c (Proc.devRef .tc main_v14) = W1 m ρ c (Proc.devRef .tc main_v14) :=
    W2_of_ne m ρ c main_v14 (by decide)
  rw [e3, e2]
  show StableHlo.after hostOps0 (W0 m ρ c) (Proc.devRef .tc main_v14) = _
  after_results_simp <;> rfl

set_option maxHeartbeats 4000000 in
/-- The second call's ids array is the second stream's group ids as a column. -/
theorem V3_seg (c : Dev nD) (b : Fin 16) (k : Fin 4096) :
    (V3 m ρ c main_v17 : S16x4096x1.Idx → BitVec 32) (ix3 b k 0) = m ((c.tc : Thread nD τ).loc main_arg4) (ix2 b k) := by
  have e3 : (V3 m ρ c main_v17 : S16x4096x1.Idx → BitVec 32)
      = broadcastInDim S16x4096x1 ![0, 1] bcast_S16x4096_S16x4096x1_0_1 (W2 m ρ c (Proc.devRef .tc main_arg4)) := by
    show StableHlo.after hostOps1 (W2 m ρ c) (Proc.devRef .tc main_v17) = _
    after_results
  have e2 : W2 m ρ c (Proc.devRef .tc main_arg4) = W1 m ρ c (Proc.devRef .tc main_arg4) :=
    W2_of_ne m ρ c main_arg4 (by decide)
  have e1 : W1 m ρ c (Proc.devRef .tc main_arg4) = m ((c.tc : Thread nD τ).loc main_arg4) := by
    show StableHlo.after hostOps0 (W0 m ρ c) (Proc.devRef .tc main_arg4) = _
    after_results_simp <;> rfl
  rw [e3, e2, e1]
  exact broadcastInDim_apply _ bcast_S16x4096_S16x4096x1_0_1 _ (ix3 b k 0) (ix2 b k) (fun a => by
    match a with
    | ⟨0, _⟩ => rfl
    | ⟨1, _⟩ => rfl)

/-! ## The two output arrays and the result -/

/-- The second call leaves the second stream's group means in its output array. -/
theorem out1 (c : Dev nD) :
    (W4 m ρ c (Proc.devRef .tc main_v18) : S16x1024x1024.Idx → EReal)
      = SegMean.mean (rows (m ((c.tc : Thread nD τ).loc main_arg0)) (m ((c.tc : Thread nD τ).loc main_arg3)))
          (m ((c.tc : Thread nD τ).loc main_arg4)) := by
  rw [← V3_feat m ρ c]
  exact (W4_arr m ρ c 2).trans (Region1.out_eq (V3 m ρ) c _ (V3_seg m ρ c))

/-- The first call's output array still holds the first stream's group means when the second call has run. -/
theorem out0 (c : Dev nD) :
    (W4 m ρ c (Proc.devRef .tc main_v16) : S16x1024x1024.Idx → EReal)
      = SegMean.mean (rows (m ((c.tc : Thread nD τ).loc main_arg0)) (m ((c.tc : Thread nD τ).loc main_arg1)))
          (m ((c.tc : Thread nD τ).loc main_arg2)) := by
  have e4 : W4 m ρ c (Proc.devRef .tc main_v16) = W3 m ρ c (Proc.devRef .tc main_v16) :=
    W4_of_ne m ρ c main_v16 (by decide)
  have e3 : W3 m ρ c (Proc.devRef .tc main_v16) = W2 m ρ c (Proc.devRef .tc main_v16) := by
    show StableHlo.after hostOps1 (W2 m ρ c) (Proc.devRef .tc main_v16) = _
    after_results
  rw [e4, e3, ← V1_feat m ρ c]
  exact (W2_arr m ρ c 2).trans (Region0.out_eq (V1 m ρ) c _ (V1_seg m ρ c))

/-- THE RESULT BUFFER after the run: the two streams' group means joined along the group axis, the second stream's
    first. -/
theorem result_eq (c : Dev nD) :
    (W5 m ρ c (Proc.devRef .tc main_v19) : S16x2048x1024.Idx → EReal)
      = concatenate S16x2048x1024 1
          [⟨S16x1024x1024, SegMean.mean (rows (m ((c.tc : Thread nD τ).loc main_arg0)) (m ((c.tc : Thread nD τ).loc main_arg3))) (m ((c.tc : Thread nD τ).loc main_arg4))⟩,
           ⟨S16x1024x1024, SegMean.mean (rows (m ((c.tc : Thread nD τ).loc main_arg0)) (m ((c.tc : Thread nD τ).loc main_arg1))) (m ((c.tc : Thread nD τ).loc main_arg2))⟩]
          concatenates_S16x1024x1024_S16x1024x1024_S16x2048x1024_d1 := by
  rw [← out1 m ρ c, ← out0 m ρ c]
  show StableHlo.after hostOps2 (W4 m ρ c) (Proc.devRef .tc main_v19) = _
  after_results

end Cert.KernelIdeal.Val

end
-- ==== Proof.SegFlat.lean ====
import proofs.«406278_j87316685128183_1_alg».proof.Proof.SegMean
import Idealize.ShloMosaic.Lib.StableHlo.Predicate

/-!
# The reference's flattened group ids

The reference reduces all samples at once: token `t` of sample `b` becomes row `n = 4096 b + t` of a [65536, ·]
array, and its group id `s b t` becomes the flat id `s b t + 1024 b` (an `i32` sum), the row of a [16384, ·]
accumulator it is added into. When every group id is a natural number below 1024 nothing wraps, the flat id of
`(b', t)` is `1024 b + g` exactly when `b' = b` and `s b' t = g`, and a sum over all 65536 rows selected by
"flat id `= 1024 b + g`" is the sum over sample `b`'s tokens selected by "group id `= g`".
-/

noncomputable section

namespace Cert.SegMean

open Idealize.ShloMosaic Idealize.ShloMosaic.ValueIdx

/-- A group id below 1024 plus `1024 b` does not wrap: read signed it is the natural-number sum. -/
theorem flat_toInt (w : BitVec 32) (b : Fin 16) (hw : w.toNat < 1024) :
    (IntOp.addi w (IntOp.muli (BitVec.ofNat 32 b.val) 1024#32)).toInt = ((w.toNat + b.val * 1024 : Nat) : Int) := by
  have hb := b.isLt
  have e : (IntOp.addi w (IntOp.muli (BitVec.ofNat 32 b.val) 1024#32)).toNat = w.toNat + b.val * 1024 := by
    unfold IntOp.addi IntOp.muli
    rw [BitVec.toNat_add, BitVec.toNat_mul, BitVec.toNat_ofNat]
    show (w.toNat + (b.val % 2 ^ 32 * 1024) % 2 ^ 32) % 2 ^ 32 = _
    omega
  rw [StableHlo.Predicate.toInt_eq_toNat_of_lt (by rw [e]; omega), e]

/-- The 65536 rows are the 16 samples' 4096 tokens, sample-major. -/
theorem sum_rows {M : Type*} [AddCommMonoid M] (f : Fin 65536 → M) :
    ∑ n, f n = ∑ b : Fin 16, ∑ t : Fin 4096,
      f ⟨b.val * 4096 + t.val, by have := b.isLt; have := t.isLt; omega⟩ := by
  rw [← Fintype.sum_prod_type' (fun (b : Fin 16) (t : Fin 4096) => f ⟨b.val * 4096 + t.val, by have := b.isLt; have := t.isLt; omega⟩),
    ← Equiv.sum_comp (finProdFinEquiv (m := 16) (n := 4096)) f]
  refine Finset.sum_congr rfl fun p _ => congrArg f (Fin.ext ?_)
  show p.2.val + 4096 * p.1.val = p.1.val * 4096 + p.2.val
  omega

/-- A sum over all rows selected by the flat id `1024 b + g` is the sum over sample `b`'s tokens selected by the
    group id `g`. -/
theorem sum_flat_eq (s : IVec SSeg 32) (hs : ∀ i, (s i).toNat < 1024) (G : Fin 16 → Fin 4096 → EReal)
    (b : Fin 16) (g : Fin 1024) :
    (∑ b' : Fin 16, ∑ t : Fin 4096,
        if (IntOp.addi (s (ix2 b' t)) (IntOp.muli (BitVec.ofNat 32 b'.val) 1024#32)).toInt
            = ((b.val * 1024 + g.val : Nat) : Int) then G b' t else 0)
      = ∑ t : Fin 4096, if s (ix2 b t) = BitVec.ofNat 32 g.val then G b t else 0 := by
  have hg := g.isLt
  rw [Finset.sum_eq_single b]
  · refine Finset.sum_congr rfl fun t _ => ?_
    rw [flat_toInt _ _ (hs _)]
    have hw := hs (ix2 b t)
    have iff : ((((s (ix2 b t)).toNat + b.val * 1024 : Nat) : Int) = ((b.val * 1024 + g.val : Nat) : Int))
        ↔ s (ix2 b t) = BitVec.ofNat 32 g.val := by
      constructor
      · intro h
        apply BitVec.eq_of_toNat_eq
        rw [BitVec.toNat_ofNat]
        omega
      · intro h
        rw [h, BitVec.toNat_ofNat]
        omega
    exact if_congr iff rfl rfl
  · intro b' _ hne
    refine Finset.sum_eq_zero fun t _ => ?_
    rw [flat_toInt _ _ (hs _), if_neg]
    have hw := hs (ix2 b' t)
    have : b'.val ≠ b.val := fun h => hne (Fin.ext h)
    omega
  · intro h; exact absurd (Finset.mem_univ b) h

end Cert.SegMean

end
-- ==== Proof.LibScatterRows.lean ====
import Idealize.ShloMosaic.PureOps.Ideal
import Idealize.ShloMosaic.Lib.ValueIdx

/-!
# A host scatter-add of rows, read at an index

`out = operand.at[idx].add(updates)` with `operand : [R, C]`, one start row per update row (`idx : [N, 1]`, read
signed) and `updates : [N, C]`: update row `n` is added into operand row `idx n` when that row exists and is dropped
otherwise. At the ideal instance the result at `(r, c)` is the operand's entry plus the sum, over the update rows
`n` whose start row is `r`, of `updates (n, c)`. The same for vectors (`operand : [R]`, `updates : [N]`).
-/

noncomputable section

namespace Idealize.ShloMosaic.ScatterRows

open Idealize.ShloMosaic Idealize.ShloMosaic.ValueIdx

variable {R C N : Nat}

/-- The dimension numbers of a row scatter: window axis 1 of the updates onto axis 1 of the operand, axis 0 inserted
    and addressed by the one index component. -/
abbrev dims2 (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ where
  updateWindowDims := [1]
  insertedWindowDims := [0]
  scatterDimsToOperandDims := [0]
  indexVectorDim := 1
  wf := wf

variable (wf : ScatterDims.WF (⟨2, ![R, C]⟩ : Shape) ⟨2, ![N, 1]⟩ ⟨2, ![N, C]⟩ [1] [0] [0] 1)

theorem start0 {w : Nat} (n : Fin N) (q : Fin C) (idx : IVec ⟨2, ![N, 1]⟩ w) :
    (dims2 wf).start (ix2 n q) idx 0 = (idx (ix2 n 0)).toInt := by
  unfold ScatterDims.start
  rw [dif_pos (show (0 : Fin 2) ∈ [(0 : Fin 2)] by decide)]
  refine congrArg (fun k => (idx k).toInt) (funext fun b => Fin.ext ?_)
  match b with
  | ⟨0, _⟩ => rfl
  | ⟨1, _⟩ => rfl

theorem start1 {w : Nat} (n : Fin N) (q : Fin C) (idx : IVec ⟨2, ![N, 1]⟩ w) :
    (dims2 wf).start (ix2 n q) idx 1 = 0 := by
  unfold ScatterDims.start
  rw [dif_neg (show ¬ (1 : Fin 2) ∈ [(0 : Fin 2)] by decide)]

theorem window0 (n : Fin N) (q : Fin C) : (dims2 wf).window (ix2 n q) 0 = 0 := by
  have h : ¬ (0 : Fin (⟨2, ![R, C]⟩ : Shape).rank) ∈ (dims2 wf).sKept :=
    (show ¬ (0 : Fin 2) ∈ (List.finRange 2).filter (· ∉ [(0 : Fin 2)]) by decide)
  unfold ScatterDims.window
  exact dif_neg h

theorem window1 (n : Fin N) (q : Fin C) : (dims2 wf).window (ix2 n q) 1 = q.val := by
  have h : (1 : Fin (⟨2, ![R, C]⟩ : Shape).rank) ∈ (dims2 wf).sKept :=
    (show (1 : Fin 2) ∈ (List.finRange 2).filter (· ∉ [(0 : Fin 2)]) by decide)
  unfold ScatterDims.window
  exact (dif_pos h).trans rfl

/-- Update `(n, q)` lands on operand entry `(r, c)` exactly when its start row, read signed, is `r` and its column is
    `c`; a start row outside the operand lands nowhere. -/
theorem resultIdx_iff {w : Nat} (n : Fin N) (q : Fin C) (idx : IVec ⟨2, ![N, 1]⟩ w) (r : Fin R) (c : Fin C) :
    (dims2 wf).resultIdx? (ix2 n q) idx = some (ix2 r c) ↔ (idx (ix2 n 0)).toInt = (r.val : Int) ∧ q = c := by
  have hs0 := start0 wf n q idx
  have hs1 := start1 wf n q idx
  have hw0 := window0 wf n q
  have hw1 := window1 wf n q
  have hr := r.isLt
  have hq := q.isLt
  unfold ScatterDims.resultIdx?
  split
  · rename_i h
    rw [Option.some.injEq]
    constructor
    · intro e
      have e0 : ((dims2 wf).start (ix2 n q) idx 0 + ((dims2 wf).window (ix2 n q) 0 : Nat)).toNat = r.val :=
        congrArg (fun f : (⟨2, ![R, C]⟩ : Shape).Idx => (f 0).val) e
      have e1 : ((dims2 wf).start (ix2 n q) idx 1 + ((dims2 wf).window (ix2 n q) 1 : Nat)).toNat = c.val :=
        congrArg (fun f : (⟨2, ![R, C]⟩ : Shape).Idx => (f 1).val) e
      have h0 := (h 0).1
      rw [hs0, hw0] at e0 h0
      rw [hs1, hw1] at e1
      exact ⟨by omega, Fin.ext (by omega)⟩
    · rintro ⟨e0, rfl⟩
      funext a
      apply Fin.ext
      match a with
      | ⟨0, _⟩ =>
        show ((dims2 wf).start (ix2 n q) idx 0 + ((dims2 wf).window (ix2 n q) 0 : Nat)).toNat = r.val
        rw [hs0, hw0, e0]; omega
      | ⟨1, _⟩ =>
        show ((dims2 wf).start (ix2 n q) idx 1 + ((dims2 wf).window (ix2 n q) 1 : Nat)).toNat = q.val
        rw [hs1, hw1]; omega
  · rename_i h
    constructor
    · intro e; cases e
    · rintro ⟨e0, rfl⟩
      refine absurd (fun a => ?_) h
      match a with
      | ⟨0, _⟩ =>
        show (0 : Int) ≤ (dims2 wf).start (ix2 n q) idx 0 + ((dims2 wf).window (ix2 n q) 0 : Nat)
          ∧ (dims2 wf).start (ix2 n q) idx 0 + ((dims2 wf).window (ix2 n q) 0 : Nat) < (R : Nat)
        rw [hs0, hw0, e0]; omega
      | ⟨1, _⟩ =>
        show (0 : Int) ≤ (dims2 wf).start (ix2 n q) idx 1 + ((dims2 wf).window (ix2 n q) 1 : Nat)
          ∧ (dims2 wf).start (ix2 n q) idx 1 + ((dims2 wf).window (ix2 n q) 1 : Nat) < (C : Nat)
        rw [hs1, hw1]; omega

/-- THE ROW SCATTER-ADD AT AN INDEX: the operand's entry plus the sum over the update rows whose start row is `r`
    of their entry in column `c`. -/
theorem scatterAdd_apply {w : Nat} (x : (⟨2, ![R, C]⟩ : Shape).Idx → EReal) (idx : IVec ⟨2, ![N, 1]⟩ w)
    (upd : (⟨2, ![N, C]⟩ : Shape).Idx → EReal) (r : Fin R) (c : Fin C) :
    Ideal.hostScatterAdd (dims2 wf) x idx upd (ix2 r c)
      = x (ix2 r c) + ∑ n : Fin N, if (idx (ix2 n 0)).toInt = (r.val : Int) then upd (ix2 n c) else 0 := by
  unfold Ideal.hostScatterAdd
  refine congrArg (x (ix2 r c) + ·) ?_
  rw [Finset.sum_filter, sum_idx2]
  refine Finset.sum_congr rfl fun n _ => ?_
  simp only [resultIdx_iff wf]
  by_cases hn : (idx (ix2 n 0)).toInt = (r.val : Int)
  · simp only [hn, true_and, if_true]
    rw [Finset.sum_ite_eq' Finset.univ c (fun q => upd (ix2 n q)), if_pos (Finset.mem_univ c)]
  · simp only [hn, false_and, if_false, Finset.sum_const_zero]

/-! ## The same for vectors -/

/-- The dimension numbers of an entry scatter into a vector: no window axis, the operand's one axis inserted and
    addressed by the one index component. -/
abbrev dims1 (wf : ScatterDims.WF (⟨1, ![R]⟩ : Shape) ⟨2, ![N, 1]⟩ ⟨1, ![N]⟩ [] [0] [0] 1) :
    ScatterDims (⟨1, ![R]⟩ : Shape) ⟨2, ![N, 1]⟩ ⟨1, ![N]⟩ where
  updateWindowDims := []
  insertedWindowDims := [0]
  scatterDimsToOperandDims := [0]
  indexVectorDim := 1
  wf := wf

variable (wf1 : ScatterDims.WF (⟨1, ![R]⟩ : Shape) ⟨2, ![N, 1]⟩ ⟨1, ![N]⟩ [] [0] [0] 1)

theorem vstart {w : Nat} (n : Fin N) (idx : IVec ⟨2, ![N, 1]⟩ w) :
    (dims1 wf1).start (ix1 n) idx 0 = (idx (ix2 n 0)).toInt := by
  unfold ScatterDims.start
  rw [dif_pos (show (0 : Fin 1) ∈ [(0 : Fin 1)] by decide)]
  refine congrArg (fun k => (idx k).toInt) (funext fun b => Fin.ext ?_)
  match b with
  | ⟨0, _⟩ => rfl
  | ⟨1, _⟩ => rfl

theorem vwindow (n : Fin N) : (dims1 wf1).window (ix1 n) 0 = 0 := by
  have h : ¬ (0 : Fin (⟨1, ![R]⟩ : Shape).rank) ∈ (dims1 wf1).sKept :=
    (show ¬ (0 : Fin 1) ∈ (List.finRange 1).filter (· ∉ [(0 : Fin 1)]) by decide)
  unfold ScatterDims.window
  exact dif_neg h

/-- Update `n` lands on operand entry `r` exactly when its start, read signed, is `r`. -/
theorem vresultIdx_iff {w : Nat} (n : Fin N) (idx : IVec ⟨2, ![N, 1]⟩ w) (r : Fin R) :
    (dims1 wf1).resultIdx? (ix1 n) idx = some (ix1 r) ↔ (idx (ix2 n 0)).toInt = (r.val : Int) := by
  have hs0 := vstart wf1 n idx
  have hw0 := vwindow wf1 n
  have hr := r.isLt
  unfold ScatterDims.resultIdx?
  split
  · rename_i h
    rw [Option.some.injEq]
    constructor
    · intro e
      have e0 : ((dims1 wf1).start (ix1 n) idx 0 + ((dims1 wf1).window (ix1 n) 0 : Nat)).toNat = r.val :=
        congrArg (fun f : (⟨1, ![R]⟩ : Shape).Idx => (f 0).val) e
      have h0 := (h 0).1
      rw [hs0, hw0] at e0 h0
      omega
    · intro e0
      funext a
      apply Fin.ext
      match a with
      | ⟨0, _⟩ =>
        show ((dims1 wf1).start (ix1 n) idx 0 + ((dims1 wf1).window (ix1 n) 0 : Nat)).toNat = r.val
        rw [hs0, hw0, e0]; omega
  · rename_i h
    constructor
    · intro e; cases e
    · intro e0
      refine absurd (fun a => ?_) h
      match a with
      | ⟨0, _⟩ =>
        show (0 : Int) ≤ (dims1 wf1).start (ix1 n) idx 0 + ((dims1 wf1).window (ix1 n) 0 : Nat)
          ∧ (dims1 wf1).start (ix1 n) idx 0 + ((dims1 wf1).window (ix1 n) 0 : Nat) < (R : Nat)
        rw [hs0, hw0, e0]; omega

/-- A rank-1 index set is its one coordinate range. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE ENTRY SCATTER-ADD AT AN INDEX: the operand's entry plus the sum of the updates whose start is `r`. -/
theorem vscatterAdd_apply {w : Nat} (x : (⟨1, ![R]⟩ : Shape).Idx → EReal) (idx : IVec ⟨2, ![N, 1]⟩ w)
    (upd : (⟨1, ![N]⟩ : Shape).Idx → EReal) (r : Fin R) :
    Ideal.hostScatterAdd (dims1 wf1) x idx upd (ix1 r)
      = x (ix1 r) + ∑ n : Fin N, if (idx (ix2 n 0)).toInt = (r.val : Int) then upd (ix1 n) else 0 := by
  unfold Ideal.hostScatterAdd
  refine congrArg (x (ix1 r) + ·) ?_
  rw [Finset.sum_filter, sum_idx1]
  refine Finset.sum_congr rfl fun n _ => ?_
  simp only [vresultIdx_iff wf1]

end Idealize.ShloMosaic.ScatterRows

end
-- ==== Proof.RefValue.lean ====
import proofs.«406278_j87316685128183_1_alg».proof.Proof.Gen.ReferenceIdeal.Read
import proofs.«406278_j87316685128183_1_alg».proof.Proof.SegFlat
import proofs.«406278_j87316685128183_1_alg».proof.Proof.LibScatterRows
import Idealize.ShloMosaic.PureOps.Ideal.Laws

/-!
# The reference's per-stream value is the group means

For one stream the reference flattens the samples (row `n = 4096 b + t`), offsets each group id by `1024 b`,
scatter-adds the feature rows into a zero [16384, 1024] accumulator and a one per token into a zero [16384] counter,
divides row `r` by `max (count r) 1`, and views the quotient as [16, 1024, 1024]. With every group id a natural
number below 1024 (the precondition), entry `(b, g, d)` of that view is the mean of group `g` of sample `b`.
-/

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- The sample of flattened row `n`. -/
def smp (n : Fin 65536) : Fin 16 := ⟨n.val / 4096, by have := n.isLt; omega⟩
/-- The token of flattened row `n`. -/
def tok (n : Fin 65536) : Fin 4096 := ⟨n.val % 4096, Nat.mod_lt _ (by decide)⟩

/-- Row `n` of the index column is the group id of `n`'s token offset by `1024` times its sample. -/
theorem flatId_apply (x2 : IVec S16x4096 32) (n : Fin 65536) :
    val_main_v23 (F := Ideal) x2 (ix2 n 0)
      = IntOp.addi (x2 (ix2 (smp n) (tok n))) (IntOp.muli (BitVec.ofNat 32 (smp n).val) 1024#32) := by
  rw [val_main_v23_apply, val_main_v20_apply, val_main_v19_apply, val_main_v18_apply, val_main_v17_apply,
    val_main_v15_apply, val_main_v16_apply, val_main_c_3_apply, val_main_v14_apply]
  have e : idx_main_v20 (idx_main_v23 (ix2 n 0)) = ix2 (smp n) (tok n) := funext fun a => by
    match a with
    | ⟨0, _⟩ => rfl
    | ⟨1, _⟩ => rfl
  rw [e]

/-- Row `n` of the flattened features is the feature row of `n`'s token. -/
theorem flatFeat_apply (x0 : FVec Ideal S50265x1024 .f32) (x1 : IVec S16x4096 32) (n : Fin 65536) (d : Fin 1024) :
    val_main_v21 (F := Ideal) x0 x1 (ix2 n d) = val_main_v6 (F := Ideal) x0 x1 (ix3 (smp n) (tok n) d) := by
  rw [val_main_v21_apply]
  refine congrArg _ (funext fun a => Fin.ext ?_)
  have hn := n.isLt
  have hd := d.isLt
  match a with
  | ⟨0, _⟩ => show (n.val * 1024 + d.val) / 4194304 = n.val / 4096; omega
  | ⟨1, _⟩ => show (n.val * 1024 + d.val) / 1024 % 4096 = n.val % 4096; omega
  | ⟨2, _⟩ => show (n.val * 1024 + d.val) % 1024 = d.val; omega

/-- The accumulated sums at row `r`, column `d`: the feature rows whose flat id is `r`, summed. -/
theorem sums_apply (x0 : FVec Ideal S50265x1024 .f32) (x1 x2 : IVec S16x4096 32) (r : Fin 16384) (d : Fin 1024) :
    val_main_v24 (F := Ideal) x0 x1 x2 (ix2 r d)
      = ∑ n : Fin 65536, if (val_main_v23 (F := Ideal) x2 (ix2 n 0)).toInt = (r.val : Int)
          then val_main_v6 (F := Ideal) x0 x1 (ix3 (smp n) (tok n) d) else 0 := by
  unfold val_main_v24
  simp only [Host.scatterAdd, Ideal.hostScatterAdd_def]
  rw [show scatter_S16384x1024_S65536x1_S65536x1024_1_0_0_1
      = ScatterRows.dims2 Gen.scatter_S16384x1024_S65536x1_S65536x1024_1_0_0_1_wf from rfl,
    ScatterRows.scatterAdd_apply, val_main_v22_apply, val_main_cst_apply, Ideal.ofBits_def, Ideal.ofBits_zero_f32, zero_add]
  exact Finset.sum_congr rfl fun n _ => by rw [flatFeat_apply]

/-- The accumulated counts at row `r`: one for each token whose flat id is `r`. -/
theorem counts_apply (x2 : IVec S16x4096 32) (r : Fin 16384) :
    val_main_v28 (F := Ideal) x2 (ix1 r)
      = ∑ n : Fin 65536, if (val_main_v23 (F := Ideal) x2 (ix2 n 0)).toInt = (r.val : Int) then 1 else 0 := by
  unfold val_main_v28
  simp only [Host.scatterAdd, Ideal.hostScatterAdd_def]
  rw [show scatter_S16384_S65536x1_S65536_n_0_0_1
      = ScatterRows.dims1 Gen.scatter_S16384_S65536x1_S65536_n_0_0_1_wf from rfl,
    ScatterRows.vscatterAdd_apply, val_main_v26_apply, val_main_cst_5_apply, Ideal.ofBits_def, Ideal.ofBits_zero_f32, zero_add]
  refine Finset.sum_congr rfl fun n _ => ?_
  rw [val_main_v25_apply, val_main_cst_4_apply, Ideal.ofBits_def]
  rw [show val_main_v27 (F := Ideal) x2 = val_main_v23 (F := Ideal) x2 from rfl]
  rw [show Ideal.ofBits .f32 0x3F800000#32 = 1 by simp [Ideal.ofBits, Ideal.ieee, -EReal.coe_mul]; norm_num]

theorem smp_mk (b : Fin 16) (t : Fin 4096) (h : b.val * 4096 + t.val < 65536) : smp ⟨b.val * 4096 + t.val, h⟩ = b :=
  Fin.ext (by have := t.isLt; show (b.val * 4096 + t.val) / 4096 = b.val; omega)
theorem tok_mk (b : Fin 16) (t : Fin 4096) (h : b.val * 4096 + t.val < 65536) : tok ⟨b.val * 4096 + t.val, h⟩ = t :=
  Fin.ext (by have := t.isLt; show (b.val * 4096 + t.val) % 4096 = t.val; omega)

/-- The f32 word `0x3F800000` is one. -/
theorem one_f32 : Ideal.ofBits .f32 0x3F800000#32 = 1 := by
  simp [Ideal.ofBits, Ideal.ieee, -EReal.coe_mul]; norm_num

/-- ONE STREAM OF THE REFERENCE: with every group id below 1024, the per-stream value is the group means of the
    gathered rows. -/
theorem stream_mean (x0 : FVec Ideal S50265x1024 .f32) (x1 x2 : IVec S16x4096 32) (hs : ∀ i, (x2 i).toNat < 1024) :
    val_main_v34 (F := Ideal) x0 x1 x2 = SegMean.mean (val_main_v6 (F := Ideal) x0 x1) x2 := by
  funext i
  obtain ⟨b, g, d, rfl⟩ : ∃ (b : Fin 16) (g d : Fin 1024), i = ix3 b g d := ⟨i 0, i 1, i 2, eq_ix3 i⟩
  have hb := b.isLt
  have hg := g.isLt
  have hd := d.isLt
  have hr : b.val * 1024 + g.val < 16384 := by omega
  have e34 : idx_main_v34 (ix3 b g d) = ix2 (⟨b.val * 1024 + g.val, hr⟩ : Fin 16384) d := funext fun a => Fin.ext (by
    match a with
    | ⟨0, _⟩ => show ((b.val * 1024 + g.val) * 1024 + d.val) / 1024 = b.val * 1024 + g.val; omega
    | ⟨1, _⟩ => show ((b.val * 1024 + g.val) * 1024 + d.val) % 1024 = d.val; omega)
  have e32 : idx_main_v31 (idx_main_v32 (ix2 (⟨b.val * 1024 + g.val, hr⟩ : Fin 16384) d)) = ix1 (⟨b.val * 1024 + g.val, hr⟩ : Fin 16384) :=
    funext fun a => by
      match a with
      | ⟨0, _⟩ => rfl
  rw [val_main_v34_apply, val_main_v33_apply, e34, val_main_v32_apply, val_main_v31_apply, val_main_v30_apply,
    val_main_v29_apply, val_main_cst_6_apply, e32, sums_apply, counts_apply, SegMean.mean_apply]
  simp only [Ideal.hostDivf_def, Ideal.maximumf_def, Ideal.ofBits_def]
  rw [one_f32]
  unfold SegMean.groupSum SegMean.groupCount
  refine congrArg₂ Ideal.div ?_ (congrArg₂ max ?_ rfl)
  · rw [SegMean.sum_rows]
    simp only [flatId_apply, smp_mk, tok_mk]
    exact SegMean.sum_flat_eq x2 hs (fun b' t => val_main_v6 (F := Ideal) x0 x1 (ix3 b' t d)) b g
  · rw [SegMean.sum_rows]
    simp only [flatId_apply, smp_mk, tok_mk]
    exact SegMean.sum_flat_eq x2 hs (fun _ _ => 1) b g

/-- The second stream's stages are the first's at the other arguments: the same operations in the same order. -/
theorem second_stream (x0 : FVec Ideal S50265x1024 .f32) (x3 x4 : IVec S16x4096 32) :
    val_main_v58 (F := Ideal) x0 x3 x4 = val_main_v34 (F := Ideal) x0 x3 x4 := rfl

/-- THE REFERENCE'S RESULT: the two streams' group means joined along the group axis, the second stream's first. -/
theorem result_eq (x0 : FVec Ideal S50265x1024 .f32) (x1 x2 x3 x4 : IVec S16x4096 32)
    (h2 : ∀ i, (x2 i).toNat < 1024) (h4 : ∀ i, (x4 i).toNat < 1024) :
    val_main_v62 (F := Ideal) x0 x1 x2 x3 x4
      = concatenate S16x2048x1024 1
          [⟨S16x1024x1024, SegMean.mean (val_main_v6 (F := Ideal) x0 x3) x4⟩,
           ⟨S16x1024x1024, SegMean.mean (val_main_v6 (F := Ideal) x0 x1) x2⟩]
          Gen.concatenates_S16x1024x1024_S16x1024x1024_S16x2048x1024_d1 := by
  unfold val_main_v62
  rw [second_stream, stream_mean x0 x3 x4 h4, stream_mean x0 x1 x2 h2]

end Cert.ReferenceIdeal.RefValue

end
-- ==== Proof.PreRange.lean ====
import proofs.«406278_j87316685128183_1_alg».proof.Defs
import proofs.«406278_j87316685128183_1_alg».proof.Proof.Gen.Pre_finite_inputs
import Idealize.ShloMosaic.Lib.ReduceAll
import Idealize.ShloMosaic.Lib.ValueIdx
import Idealize.ShloMosaic.Lib.StableHlo.Predicate

/-!
# What the precondition says of the group ids

The precondition is the conjunction of three `all`-reductions: every embedding entry finite, every group id of the
first stream in `[0, 1024)`, every group id of the second stream in `[0, 1024)`. Only the two ranges are used: each
group id, read signed, is a natural number below 1024.
-/

set_option maxRecDepth 16384

noncomputable section

namespace Cert.PreRange

open Idealize.ShloMosaic Idealize.ShloMosaic.ValueIdx
open Cert.Pre_finite_inputs

instance : Subsingleton S_.Idx := ⟨fun a b => funext fun d => d.elim0⟩

/-- A word at least `0` and below `1024`, signed, is a natural number below 1024. -/
theorem word_range (w : BitVec 32) (h0 : IntOp.cmpi .sge w (0#32) = 1#1) (h1 : IntOp.cmpi .slt w (1024#32) = 1#1) :
    w.toNat < 1024 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

variable {F : FTy → Type} [FloatOps F] [hP : Cert.Pre_finite_inputs.Facts]

/-- Under the precondition every group id of both streams is below 1024. -/
theorem seg_lt (x0 : FVec F S50265x1024 .f32) (x1 x2 x3 x4 : IVec S16x4096 32)
    (h : Cert.Pre_finite_inputs.fn (F := F) x0 x1 x2 x3 x4 = fun _ => 1#1) (i : S16x4096.Idx) :
    (x2 i).toNat < 1024 ∧ (x4 i).toNat < 1024 := by
  have e := congrFun h ix0
  unfold Cert.Pre_finite_inputs.fn Cert.Pre_finite_inputs.fn_part1 at e
  dsimp only at e
  obtain ⟨hAB, hC⟩ := IntOp.andi_eq_one.1 e
  obtain ⟨-, hB⟩ := IntOp.andi_eq_one.1 hAB
  have h2 : IntOp.andi (IntOp.cmpi .sge (x2 i) (0#32)) (IntOp.cmpi .slt (x2 i) (1024#32)) = 1#1 :=
    Host.reduce_andi_all _ _ _ _ ix0 hB i
  have h4 : IntOp.andi (IntOp.cmpi .sge (x4 i) (0#32)) (IntOp.cmpi .slt (x4 i) (1024#32)) = 1#1 :=
    Host.reduce_andi_all _ _ _ _ ix0 hC i
  obtain ⟨h20, h21⟩ := IntOp.andi_eq_one.1 h2
  obtain ⟨h40, h41⟩ := IntOp.andi_eq_one.1 h4
  exact ⟨word_range _ h20 h21, word_range _ h40 h41⟩

end Cert.PreRange

end
-- ==== Proof.lean ====
/- The proof of `Cert.Claim` for the segment-mean kernel: two token streams' embedding rows averaged per group.

   The kernel computes, per stream and per sample, the group sums and counts as products of a one-hot matrix
   (token × group) with the gathered features and with a column of ones, and divides; the reference scatter-adds the
   rows of all samples at once at the flat ids `group + 1024 · sample`. Under the precondition — finite embeddings,
   and every group id in `[0, 1024)`, the range the reference's own contract states — both results are, index by index
   on the extended reals,

     concatenate [ mean (rows embed amr_token_ids) amr_segments , mean (rows embed text_token_ids) text_segments ]

   where `mean f s (b, g, d) = (∑ t, [s b t = g] · f b t d) / max (∑ t, [s b t = g]) 1` (Proof/SegMean.lean) and
   `rows` is the gather both programs share. No law of the extended reals beyond `1 · x = x`, `0 · x = 0` and a
   re-indexing of finite sums is used, so the finiteness conjunct is never opened; the range conjunct is what makes
   a flat id name its own sample's group (Proof/SegFlat.lean).
   Kernel side: Proof/KernelPayload.lean (the body at an index), Proof/KernelRegion0.lean, Proof/KernelRegion1.lean
   (blocks to arrays), Proof/KernelValue.lean (the result buffer), Proof/KernelRun.lean (the run with the result named).
   Reference side: Proof/LibScatterRows.lean (a row scatter-add at an index), Proof/RefValue.lean.
   Precondition: Proof/PreRange.lean. -/
import proofs.«406278_j87316685128183_1_alg».proof.Defs
import proofs.«406278_j87316685128183_1_alg».proof.Proof.Gen.Kernel
import proofs.«406278_j87316685128183_1_alg».proof.Proof.Gen.Kernel.Skeleton
import proofs.«406278_j87316685128183_1_alg».proof.Proof.Gen.Kernel.Launch
import proofs.«406278_j87316685128183_1_alg».proof.Proof.Gen.Kernel.Points
import proofs.«406278_j87316685128183_1_alg».proof.Proof.Gen.Kernel.Frame
import proofs.«406278_j87316685128183_1_alg».proof.Proof.Gen.KernelIdeal
import proofs.«406278_j87316685128183_1_alg».proof.Proof.Gen.KernelIdeal.Skeleton
import proofs.«406278_j87316685128183_1_alg».proof.Proof.Gen.KernelIdeal.Launch
import proofs.«406278_j87316685128183_1_alg».proof.Proof.Gen.KernelIdeal.Points
import proofs.«406278_j87316685128183_1_alg».proof.Proof.Gen.KernelIdeal.Frame
import proofs.«406278_j87316685128183_1_alg».proof.Proof.Gen.ReferenceIdeal
import proofs.«406278_j87316685128183_1_alg».proof.Proof.Gen.Pre_finite_inputs
import proofs.«406278_j87316685128183_1_alg».proof.Proof.Gen.ReferenceIdeal.Run
import proofs.«406278_j87316685128183_1_alg».proof.Proof.Gen.ReferenceIdeal.Read
import proofs.«406278_j87316685128183_1_alg».proof.Proof.KernelRun
import proofs.«406278_j87316685128183_1_alg».proof.Proof.KernelValue
import proofs.«406278_j87316685128183_1_alg».proof.Proof.RefValue
import proofs.«406278_j87316685128183_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs gather the same rows: the kernel's change of the table's format is the identity at the ideal
    instance, and the two printed gathers have the same dimension numbers. -/
theorem rows_eq (x0 : FVec Ideal Cert.ReferenceIdeal.S50265x1024 .f32) (ids : IVec Cert.ReferenceIdeal.S16x4096 32) :
    Cert.ReferenceIdeal.Read.val_main_v6 (F := Ideal) x0 ids = Cert.KernelIdeal.Val.rows x0 ids := rfl

/-- From memories agreeing on the arguments, under the precondition, both idealized programs end with the two
    streams' group means joined along the group axis. -/
theorem algebraic : Cert.algebraic_KernelIdeal_ReferenceIdeal := by
  intro m ρ m' ρ' hpre hagree
  refine ⟨_, (θ_run Cert.KernelIdeal.defs _ _).mono
      (fun _ h c => ⟨(h c).1.trans (Cert.KernelIdeal.Val.result_eq m ρ c), (h c).2⟩)
      (Cert.KernelIdeal.RunNamed.run_named m ρ), ?_⟩
  refine (θ_run Cert.ReferenceIdeal.defs _ _).mono (fun _ h c => ⟨(h c).1.trans ?_, (h c).2⟩)
    (Cert.ReferenceIdeal.Value.run (F := Ideal) m' ρ')
  have h2 := fun i => (Cert.PreRange.seg_lt _ _ _ _ _ (hpre c) i).1
  have h4 := fun i => (Cert.PreRange.seg_lt _ _ _ _ _ (hpre c) i).2
  rw [Cert.ReferenceIdeal.Read.val_main_v62_eq, (hagree c).1, (hagree c).2.1, (hagree c).2.2.1, (hagree c).2.2.2.1,
    (hagree c).2.2.2.2, Cert.ReferenceIdeal.RefValue.result_eq _ _ _ _ _ h2 h4, rows_eq, rows_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
